-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  main_v3
-- ==== Kernel.lean ====
abbrev S33554432 : Shape := ⟨1, ![33554432]⟩
abbrev S262144x128 : Shape := ⟨2, ![262144, 128]⟩
abbrev S1x1 : Shape := ⟨2, ![1, 1]⟩
abbrev S8192x128 : Shape := ⟨2, ![8192, 128]⟩
abbrev S8192 : Shape := ⟨1, ![8192]⟩
abbrev S1x8192 : Shape := ⟨2, ![1, 8192]⟩
abbrev S1 : Shape := ⟨1, ![1]⟩
abbrev S_ : Shape := ⟨0, ![]⟩

abbrev nBuf : Space → Nat
  | .hbm => 4
  | .vmem => 4
  | .smem => 0
  | _ => 0

abbrev bufTy : (tb : Table) → Fin (tcTables nBuf tb) → BufTy
  | .hbm, ⟨0, _⟩ => ⟨S33554432, .f32⟩
  | .hbm, ⟨1, _⟩ => ⟨S262144x128, .f32⟩
  | .hbm, ⟨2, _⟩ => ⟨S1x1, .f32⟩
  | .hbm, ⟨3, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S1x1, .f32⟩
  | .local _ .vmem, ⟨3, _⟩ => ⟨S1x1, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v29 : BitVec 1 := Scalar.cmpi .eq arg0 c31_i32
  let v30 : BitVec 32 := Scalar.extui v29
  let c0_i32_12 : BitVec 32 := 0#32
  let v31 : BitVec 1 := Scalar.cmpi .ne v30 c0_i32_12
  v31

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  shapeCasts_S33554432_S262144x128 : S33554432.ShapeCasts S262144x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S8192 : S8192x128.Reduces [1] S8192
  shapeCasts_S8192_S1x8192 : S8192.ShapeCasts S1x8192
  reduces_S1x8192_S1 : S1x8192.Reduces [1] S1
  shapeCasts_S1_S1x1 : S1.ShapeCasts S1x1
  inpos_S1x1_p0_0 : ∀ a, (![0, 0] : Fin 2 → Nat) a < S1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S33554432 : Shape := ⟨1, ![33554432]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S33554432, .f32⟩
  | .hbm, ⟨3, _⟩ => ⟨S_, .f32⟩
  | .hbm, ⟨4, _⟩ => ⟨S33554432, .f32⟩
  | .hbm, ⟨5, _⟩ => ⟨S33554432, .f32⟩
  | .hbm, ⟨6, _⟩ => ⟨S_, .f32⟩
  | .hbm, ⟨7, _⟩ => ⟨S33554432, .f32⟩
  | .hbm, ⟨8, _⟩ => ⟨S33554432, .f32⟩
  | .hbm, ⟨9, _⟩ => ⟨S_, .f32⟩
  | .hbm, ⟨10, _⟩ => ⟨S33554432, .f32⟩
  | .hbm, ⟨11, _⟩ => ⟨S33554432, .f32⟩
  | .hbm, ⟨12, _⟩ => ⟨S_, .f32⟩
  | .hbm, ⟨13, _⟩ => ⟨S33554432, .f32⟩
  | .hbm, ⟨14, _⟩ => ⟨S33554432, .f32⟩
  | .hbm, ⟨15, _⟩ => ⟨S_, .f32⟩
  | .hbm, ⟨16, _⟩ => ⟨S33554432, .f32⟩
  | .hbm, ⟨17, _⟩ => ⟨S33554432, .i1⟩
  | .hbm, ⟨18, _⟩ => ⟨S33554432, .f32⟩
  | .hbm, ⟨19, _⟩ => ⟨S_, .f32⟩
  | .hbm, ⟨20, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_cst_3 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_4 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)
  reducesTo_S33554432_S_d0 : S33554432.ReducesTo [0] S_
  h_S_ : 0 < S_.numel

variable [Facts₀]

class Facts : Prop extends Facts₀ where

variable [Facts]
-- ==== Proof.Pieces.lean ====
/-
  What one run of the kernel body leaves behind, case by case, as the body's own arithmetic.

  The body reads its input block `x` whole, reads the one-entry accumulator, and stores the accumulating value
  `k0_pay2 x acc` into the accumulator. At the grid's first point it first stores the reset value `k0_pay1` and reads it
  back, so the accumulator ends at `k0_pay2 x k0_pay1`; at every later point it ends at `k0_pay2 x xs`, `xs` being what
  the point before left. At the last point the body then copies the accumulator, just stored, into the output block:
  the output ends at the same `k0_pay2 x xs`. Every load and store goes through the whole one-entry (or whole-block)
  rectangle at zero offsets, so a load reads the contents and the last store alone decides what is left.
  Stated for any float instance.
-/
import proofs.«136935_j20255065768293_1_alg».proof.Proof.Gen.KernelIdeal.Frame
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Zero offsets on both axes, as the printed rectangles spell them. -/
theorem off00 : (![0, 0] : Fin 2 → ℕ) = fun _ => 0 :=
  funext fun a => by
    match a with
    | ⟨0, _⟩ => rfl
    | ⟨1, _⟩ => rfl

/-- First point: the accumulator is reset, read back, and the block's value added. -/
theorem sout0_A_0_eq (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (hc0 : cond0_0 i) (hc1 : ¬cond0_1 i) (x0 : Vec F S8192x128 .f32) :
    sout0_A_0 c i arg1 harg1 arg2 harg2 arg3 harg3 hc0 hc1 x0 = k0_pay2 x0 (k0_pay1 (F := F)) := by
  unfold sout0_A_0
  rw [View.read_writes_eq_canon _ _ _ (scover0_A_0 c i arg1 harg1 arg2 harg2 arg3 harg3 hc0 hc1 x0)]
  unfold kernelRun0_A
  dsimp only
  sl_unfold_words
  rw [View.canon_cons_unit_zero (S := S1x1) off00, View.readCov_unit_zero (S := S1x1) _ off00]
  simp only [View.readAt_eq_ld, harg1.read_unread, View.ld_unit_zero (S := S8192x128) off00]

/-- A middle point: the block's value added to what the point before left. -/
theorem sout0_B_0_eq (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (hc0 : ¬cond0_0 i) (hc1 : ¬cond0_1 i) (x0 : Vec F S8192x128 .f32) (xs0 : Vec F S1x1 .f32) :
    sout0_B_0 c i arg1 harg1 arg2 harg2 arg3 harg3 hc0 hc1 x0 xs0 = k0_pay2 x0 xs0 := by
  unfold sout0_B_0
  rw [View.read_writes_eq_canon _ _ _ (scover0_B_0 c i arg1 harg1 arg2 harg2 arg3 harg3 hc0 hc1 x0 xs0)]
  unfold kernelRun0_B
  dsimp only
  sl_unfold_words
  rw [View.canon_unit_zero (S := S1x1) off00]
  simp only [View.readAt_eq_ld, harg1.read_unread, harg3.read_unread, View.ld_unit_zero (S := S8192x128) off00,
    View.ld_unit_zero (S := S1x1) off00]

/-- The last point leaves the accumulator as a middle point does … -/
theorem sout0_C_0_eq (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (hc0 : ¬cond0_0 i) (hc1 : cond0_1 i) (x0 : Vec F S8192x128 .f32) (xs0 : Vec F S1x1 .f32) :
    sout0_C_0 c i arg1 harg1 arg2 harg2 arg3 harg3 hc0 hc1 x0 xs0 = k0_pay2 x0 xs0 := by
  unfold sout0_C_0
  rw [View.read_writes_eq_canon _ _ _ (scover0_C_0 c i arg1 harg1 arg2 harg2 arg3 harg3 hc0 hc1 x0 xs0)]
  unfold kernelRun0_C
  dsimp only
  sl_unfold_words
  rw [View.canon_unit_zero (S := S1x1) off00]
  simp only [View.readAt_eq_ld, harg1.read_unread, harg3.read_unread, View.ld_unit_zero (S := S8192x128) off00,
    View.ld_unit_zero (S := S1x1) off00]

/-- … and copies it into the output block. -/
theorem out0_C_1_eq (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (hc0 : ¬cond0_0 i) (hc1 : cond0_1 i) (x0 : Vec F S8192x128 .f32) (xs0 : Vec F S1x1 .f32) :
    out0_C_1 c i arg1 harg1 arg2 harg2 arg3 harg3 hc0 hc1 x0 xs0 = k0_pay2 x0 xs0 := by
  unfold out0_C_1
  rw [View.read_writes_eq_canon _ _ _ (cover0_C_1 c i arg1 harg1 arg2 harg2 arg3 harg3 hc0 hc1 x0 xs0)]
  unfold kernelRun0_C
  dsimp only
  sl_unfold_words
  rw [View.canon_unit_zero (S := S1x1) off00, View.readCov_unit_zero (S := S1x1) _ off00]
  simp only [View.readAt_eq_ld, harg1.read_unread, harg3.read_unread, View.ld_unit_zero (S := S8192x128) off00,
    View.ld_unit_zero (S := S1x1) off00]

end Cert.KernelIdeal.Gen

end
-- ==== Proof.LibSumSplit.lean ====
/-
  Sums re-indexed by row-major coordinates.

  A natural number below `a * b` is `p * b + q` for exactly one pair `p < a`, `q < b`, so a sum over `Fin (a * b)` in a
  commutative monoid is the double sum over `p` and `q` of the term at `p * b + q` (`sum_fin_mul`), and one over
  `Fin (a * b * c)` the triple sum of the term at `(t * b + r) * c + l` (`sum_fin_mul_mul`): only commutativity and
  associativity of the addition are used, so the statements hold on the extended reals with no finiteness asked.
  A sum over the index set of a rank-1 shape is the sum over its one coordinate (`sum_idx1`).
  At the ideal float values, where a one-axis additive reduction from zero is a plain finite sum: the reduction of a
  rank-2 vector along its second axis, read at row `r`, is the sum over `l` of the entries `(r, l)` (`sum_axis1_apply`).
-/
import Mathlib.Logic.Equiv.Fin.Basic
import Idealize.ShloMosaic.Lib.ValueIdx
import Idealize.ShloMosaic.PureOps.Ideal.Laws

noncomputable section

open scoped BigOperators

namespace Cert.SumSplit

open Idealize.ShloMosaic Idealize.ShloMosaic.ValueIdx

/-- The row-major position of the pair `(p, q)` in an `a × b` table lies below `a * b`. -/
theorem mul_add_lt {a b : ℕ} (p : Fin a) (q : Fin b) : p.val * b + q.val < a * b :=
  calc p.val * b + q.val < p.val * b + b := Nat.add_lt_add_left q.isLt _
    _ = (p.val + 1) * b := (Nat.succ_mul _ _).symm
    _ ≤ a * b := Nat.mul_le_mul_right _ p.isLt

/-- A sum over `Fin N`, `N = a * b`, is the double sum over the two row-major coordinates. -/
theorem sum_fin_mul {M : Type*} [AddCommMonoid M] {N : ℕ} (a b : ℕ) (hN : N = a * b) (g : Fin N → M) :
    ∑ k, g k = ∑ p : Fin a, ∑ q : Fin b, g ⟨p.val * b + q.val, hN ▸ mul_add_lt p q⟩ := by
  subst hN
  rw [← Equiv.sum_comp finProdFinEquiv g, Fintype.sum_prod_type]
  refine Finset.sum_congr rfl fun p _ => Finset.sum_congr rfl fun q _ => congrArg g (Fin.ext ?_)
  show q.val + b * p.val = p.val * b + q.val
  rw [Nat.mul_comm, Nat.add_comm]

/-- The row-major position of the triple `(t, r, l)` in an `a × b × c` table lies below `a * b * c`. -/
theorem mul_mul_add_lt {a b c : ℕ} (t : Fin a) (r : Fin b) (l : Fin c) : (t.val * b + r.val) * c + l.val < a * b * c :=
  mul_add_lt (⟨t.val * b + r.val, mul_add_lt t r⟩ : Fin (a * b)) l

/-- A sum over `Fin N`, `N = a * b * c`, is the triple sum over the three row-major coordinates. -/
theorem sum_fin_mul_mul {M : Type*} [AddCommMonoid M] {N : ℕ} (a b c : ℕ) (hN : N = a * b * c) (g : Fin N → M) :
    ∑ k, g k = ∑ t : Fin a, ∑ r : Fin b, ∑ l : Fin c, g ⟨(t.val * b + r.val) * c + l.val, hN ▸ mul_mul_add_lt t r l⟩ :=
  (sum_fin_mul (a * b) c hN g).trans
    (sum_fin_mul a b rfl fun R : Fin (a * b) => ∑ l : Fin c, g ⟨R.val * c + l.val, hN ▸ mul_add_lt R l⟩)

/-- A rank-1 index set is its one coordinate's range … -/
def idxEquiv1 {n : ℕ} : (⟨1, ![n]⟩ : Shape).Idx ≃ Fin n where
  toFun i := i 0
  invFun k := ix1 k
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ k : Fin n, f (ix1 k) := by
  rw [← Equiv.sum_comp (idxEquiv1 (n := n)).symm f]
  rfl

/-- At the ideal values the additive reduction, from the zero word, of an `a × b` single-precision vector along its
    second axis, read at row `r`, is the sum over the row's entries. (The accumulator's neutrality is asked in the form
    a printed program proves it: the zero word equal to itself.) -/
theorem sum_axis1_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (r : Fin a) :
    multiReduction .add [1] ⟨1, ![a]⟩ v 0x00000000#32 h hφ hacc (ix1 r) = ∑ l : Fin b, v (ix2 r l) :=
  (Ideal.multiReduction_add_single v 0x00000000#32 h hφ hacc (ix1 r)).trans
    (Finset.sum_congr rfl fun l _ => congrArg v (funext fun d => by
      match d with
      | ⟨0, _⟩ => exact Fin.ext rfl
      | ⟨1, _⟩ => exact Fin.ext rfl))

end Cert.SumSplit

end
-- ==== Proof.HuberTerm.lean ====
/-
  The Huber term of one extended real, threshold and constants as the 32-bit words both programs print.

  With `|x| = max x (-x)`: where `|x| ≤ τ` the term is `(x · x) · ½`, elsewhere `τ · (|x| − τ) + τ²/2`; here `τ`, `½` and `τ²/2`
  stand for the extended reals the words `0x3DCCCCCD`, `0x3F000000` and `0x3BA3D70A` denote. The words are never
  evaluated: the kernel and the reference carry the same three, in the same places.
-/
import Idealize.ShloMosaic.PureOps.Ideal

noncomputable section

namespace Cert.Huber

open Idealize.ShloMosaic

/-- One element's contribution to the loss. -/
def term (x : EReal) : EReal :=
  Scalar.select (Ideal.cmp .ole (max x (-x)) (Ideal.ofBits .f32 0x3DCCCCCD#32 : EReal))
    (x * x * (Ideal.ofBits .f32 0x3F000000#32 : EReal))
    ((Ideal.ofBits .f32 0x3DCCCCCD#32 : EReal) * (max x (-x) - (Ideal.ofBits .f32 0x3DCCCCCD#32 : EReal))
      + (Ideal.ofBits .f32 0x3BA3D70A#32 : EReal))

end Cert.Huber

end
-- ==== Proof.HuberBlock.lean ====
/-
  What one grid point adds to the carried accumulator.

  The kernel body, at a point whose input block is `x` (8192 rows of 128 lanes) and whose accumulator holds `acc`
  (one entry), stores `acc + s`, where `s` is computed in two steps: each row's Huber terms are summed over the
  128 lanes, and the 8192 row sums are summed. On the extended reals both reductions are plain finite sums, so
  `s` is the double sum over rows and lanes of the Huber term of `x (r, l)` (`blockSum`), and the stored entry is
  `acc + blockSum x` (`pay2_apply`). The value the first point resets the accumulator with is `0` (`pay1_apply`).
-/
import proofs.«136935_j20255065768293_1_alg».proof.Proof.Gen.KernelIdeal.Skeleton
import proofs.«136935_j20255065768293_1_alg».proof.Proof.LibSumSplit
import proofs.«136935_j20255065768293_1_alg».proof.Proof.HuberTerm
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Huber

open Idealize.ShloMosaic Idealize.ShloMosaic.ValueIdx Cert.KernelIdeal Cert.KernelIdeal.Gen Cert.SumSplit

/-- The sum of the Huber terms of a block's entries, rows outermost. -/
def blockSum (x : Vec Ideal S8192x128 .f32) : EReal := ∑ r : Fin 8192, ∑ l : Fin 128, term (x (ix2 r l))

/-- The reset value is zero at its one entry. -/
theorem pay1_apply (i : S1x1.Idx) : k0_pay1 (F := Ideal) i = 0 := by
  unfold k0_pay1
  simp only [shapeCast_self]
  exact Ideal.ofBits_zero_f32

/-- The only index of a `1 × 1` shape at literal position `(0, 0)`. -/
theorem pos00_eq (h : ∀ a, (![0, 0] : Fin 2 → Nat) a < S1x1.size a) :
    (fun a => (⟨(![0, 0] : Fin 2 → Nat) a, h a⟩ : Fin (S1x1.size a))) = ix2 (0 : Fin 1) (0 : Fin 1) :=
  funext fun a => by
    match a with
    | ⟨0, _⟩ => exact Fin.ext rfl
    | ⟨1, _⟩ => exact Fin.ext rfl

/-- The accumulating store's value: the accumulator's entry plus the block's sum of Huber terms. -/
theorem pay2_apply (x : Vec Ideal S8192x128 .f32) (acc : Vec Ideal S1x1 .f32) (i : S1x1.Idx) :
    k0_pay2 (F := Ideal) x acc i = acc i + blockSum x := by
  unfold k0_pay2
  simp only [shapeCast_self]
  rw [addf_apply, broadcast_apply]
  refine congrArg (acc i + ·) ?_
  unfold extractAt
  rw [pos00_eq, shapeCast_a_1a_apply]
  refine (sum_axis1_apply _ _ _ _ (0 : Fin 1)).trans ?_
  unfold blockSum
  refine Finset.sum_congr rfl fun r _ => ?_
  rw [shapeCast_a_1a_apply]
  exact sum_axis1_apply _ _ _ _ r

end Cert.Huber

end
-- ==== Proof.Accum.lean ====
/-
  The accumulator after each grid point, and the output block at the last.

  Point `t` (of 32) reads block `t` of the input: rows `8192·t … 8192·t + 8191`. The first point leaves the accumulator
  at `0 + S₀`, every later point `t` at (what point `t − 1` left) `+ Sₜ`, where `Sₜ` is the sum of the Huber terms of
  block `t`'s entries. So after point `n` the accumulator holds `S₀ + … + Sₙ` (induction on `n`), and the last point, which
  also copies the accumulator into the output block, leaves there `S₀ + … + S₃₁`. Only `0 + a = a` and the definition of
  a sum over an initial segment of the naturals are used: nothing is asked of the entries.
-/
import proofs.«136935_j20255065768293_1_alg».proof.Proof.Gen.KernelIdeal.Frame
import proofs.«136935_j20255065768293_1_alg».proof.Proof.Pieces
import proofs.«136935_j20255065768293_1_alg».proof.Proof.HuberBlock
import Idealize.ShloMosaic.Lib.Pipeline.Value

set_option maxRecDepth 16384

noncomputable section

open scoped BigOperators

namespace Cert.Huber

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! ## Each point's contents as the body's arithmetic, for any float instance -/

section AnyInstance

variable {F : FTy → Type} [FloatOps F]
variable (m : (ℓ : Loc nD τ sig) → Buf (Elt F) ℓ)

/-- The input block the body reads at point `t`, at its literal shape. -/
abbrev xblk (c : Dev nD) (t : Fin cfg0.N) : Vec F S8192x128 .f32 := iblk m c 0 t

theorem pred_lt (t : Fin cfg0.N) : t.val - 1 < cfg0.N := Nat.lt_of_le_of_lt (Nat.sub_le _ _) t.isLt

/-- After the first point the accumulator holds the reset value with the first block's value added. -/
theorem acc_first (c : Dev nD) (t : Fin cfg0.N) (h0 : t.val % 32 = 0) (h1 : ¬t.val % 32 = 31) :
    (outsAt0 m c t.val t.isLt).2 = k0_pay2 (xblk m c t) (k0_pay1 (F := F)) := by
  rw [outsAt0_A m c t h0 h1]
  dsimp only
  exact sout0_A_0_eq c (grid0.coords t) (ms0_0 t) (hs0_0 t) (ms0_1 t) (hs0_1 t) scM0_0 (Memref.isWhole_whole _)
    ((hcond0_0 t).mpr h0) (fun h => h1 ((hcond0_1 t).mp h)) (iblk m c 0 t)

/-- After a middle point: what the point before left, with this block's value added. -/
theorem acc_mid (c : Dev nD) (t : Fin cfg0.N) (h0 : ¬t.val % 32 = 0) (h1 : ¬t.val % 32 = 31) :
    (outsAt0 m c t.val t.isLt).2 = k0_pay2 (xblk m c t) (outsAt0 m c (t.val - 1) (pred_lt t)).2 := by
  rw [outsAt0_B m c t h0 h1]
  dsimp only
  exact sout0_B_0_eq c (grid0.coords t) (ms0_0 t) (hs0_0 t) (ms0_1 t) (hs0_1 t) scM0_0 (Memref.isWhole_whole _)
    (fun h => h0 ((hcond0_0 t).mp h)) (fun h => h1 ((hcond0_1 t).mp h)) (iblk m c 0 t)
    (outsAt0 m c (t.val - 1) (Nat.lt_of_le_of_lt (Nat.sub_le _ _) t.isLt)).2

/-- After the last point the accumulator is as after a middle one … -/
theorem acc_last (c : Dev nD) (t : Fin cfg0.N) (h0 : ¬t.val % 32 = 0) (h1 : t.val % 32 = 31) :
    (outsAt0 m c t.val t.isLt).2 = k0_pay2 (xblk m c t) (outsAt0 m c (t.val - 1) (pred_lt t)).2 := by
  rw [outsAt0_C m c t h0 h1]
  dsimp only
  exact sout0_C_0_eq c (grid0.coords t) (ms0_0 t) (hs0_0 t) (ms0_1 t) (hs0_1 t) scM0_0 (Memref.isWhole_whole _)
    (fun h => h0 ((hcond0_0 t).mp h)) ((hcond0_1 t).mpr h1) (iblk m c 0 t)
    (outsAt0 m c (t.val - 1) (Nat.lt_of_le_of_lt (Nat.sub_le _ _) t.isLt)).2

/-- … and the output block holds the same. -/
theorem out_last (c : Dev nD) (t : Fin cfg0.N) (h0 : ¬t.val % 32 = 0) (h1 : t.val % 32 = 31) :
    (outsAt0 m c t.val t.isLt).1 = k0_pay2 (xblk m c t) (outsAt0 m c (t.val - 1) (pred_lt t)).2 := by
  rw [outsAt0_C m c t h0 h1]
  dsimp only
  exact out0_C_1_eq c (grid0.coords t) (ms0_0 t) (hs0_0 t) (ms0_1 t) (hs0_1 t) scM0_0 (Memref.isWhole_whole _)
    (fun h => h0 ((hcond0_0 t).mp h)) ((hcond0_1 t).mpr h1) (iblk m c 0 t)
    (outsAt0 m c (t.val - 1) (Nat.lt_of_le_of_lt (Nat.sub_le _ _) t.isLt)).2

end AnyInstance

/-! ## The running sum, on the extended reals -/

section AtIdeal

variable (m : (ℓ : Loc nD τ sig) → Buf (Elt Ideal) ℓ)

/-- Point `s`'s addend: the sum of the Huber terms of block `s` (zero past the grid, where it is never used). -/
def addend (c : Dev nD) (s : ℕ) : EReal := if h : s < cfg0.N then blockSum (xblk m c ⟨s, h⟩) else 0

theorem addend_of_lt (c : Dev nD) (s : ℕ) (h : s < cfg0.N) : addend m c s = blockSum (xblk m c ⟨s, h⟩) := dif_pos h

/-- After point `n` the accumulator's entry is the sum of the addends of points `0 … n`. -/
theorem acc_apply (c : Dev nD) : ∀ (n : ℕ) (hn : n < cfg0.N) (i : S1x1.Idx),
    (outsAt0 m c n hn).2 i = ∑ s ∈ Finset.range (n + 1), addend m c s
  | 0, hn, i => by
    have e : (outsAt0 m c 0 hn).2 = k0_pay2 (xblk m c ⟨0, hn⟩) (k0_pay1 (F := Ideal)) :=
      acc_first m c ⟨0, hn⟩ rfl (by decide : ¬(0 % 32 = 31))
    rw [e, pay2_apply, pay1_apply, zero_add, Finset.sum_range_one, addend_of_lt m c 0 hn]
  | n + 1, hn, i => by
    have hN : n + 1 < 32 := lt_of_lt_of_eq hn N_0
    have h0 : ¬(n + 1) % 32 = 0 := by omega
    have e : (outsAt0 m c (n + 1) hn).2 = k0_pay2 (xblk m c ⟨n + 1, hn⟩) (outsAt0 m c n (Nat.lt_of_succ_lt hn)).2 := by
      by_cases h1 : (n + 1) % 32 = 31
      · exact acc_last m c ⟨n + 1, hn⟩ h0 h1
      · exact acc_mid m c ⟨n + 1, hn⟩ h0 h1
    rw [e, pay2_apply, acc_apply c n (Nat.lt_of_succ_lt hn) i, Finset.sum_range_succ _ (n + 1),
      addend_of_lt m c (n + 1) hn]

/-- The whole loss as the kernel adds it up: the 32 block sums, in point order. -/
def total (c : Dev nD) : EReal := ∑ s ∈ Finset.range 32, addend m c s

/-- At the point that writes the output back (the last), the output block's entry is the whole sum. -/
theorem out_apply (c : Dev nD) (t : Fin cfg0.N) (h1 : t.val % 32 = 31) (i : S1x1.Idx) :
    (outsAt0 m c t.val t.isLt).1 i = total m c := by
  obtain ⟨k, hk⟩ := t
  have hN : k < 32 := lt_of_lt_of_eq hk N_0
  have hk31 : k = 31 := by (try dsimp only at h1); omega
  subst hk31
  have e : (outsAt0 m c 31 hk).1 = k0_pay2 (xblk m c ⟨31, hk⟩) (outsAt0 m c 30 (Nat.lt_of_succ_lt hk)).2 :=
    out_last m c ⟨31, hk⟩ (by decide : ¬(31 % 32 = 0)) rfl
  show (outsAt0 m c 31 hk).1 i = total m c
  rw [e, pay2_apply, acc_apply m c 30 (Nat.lt_of_succ_lt hk) i, ← addend_of_lt m c 31 hk]
  exact (Finset.sum_range_succ _ 31).symm

end AtIdeal

end Cert.Huber

end
-- ==== Proof.KernelValue.lean ====
/-
  The kernel's result as one function of the flat input.

  The host reshapes the flat input `x` (33554432 entries) to 262144 rows of 128 lanes: entry `(R, l)` is `x (128·R + l)`.
  Point `t` of the grid reads rows `8192·t … 8192·t + 8191`, so entry `(r, l)` of its block is `x ((8192·t + r)·128 + l)`,
  and the 32 block sums, added in point order, are the sum over ALL `k < 33554432` of the Huber term of `x k`: every `k` is
  `(8192·t + r)·128 + l` for exactly one triple (`total_eq`). The output array is one block, written back once, at the
  last point, with that sum (`final_out`); the host then reshapes the one-entry array to the scalar result (`result_eq`).
-/
import proofs.«136935_j20255065768293_1_alg».proof.Proof.Gen.KernelIdeal.Frame
import proofs.«136935_j20255065768293_1_alg».proof.Proof.Accum
import proofs.«136935_j20255065768293_1_alg».proof.Proof.LibSumSplit
import Idealize.ShloMosaic.Lib.Pipeline.Value
import Idealize.ShloMosaic.Lib.StableHlo.Run
import Idealize.ShloMosaic.Lib.ValueIdx

set_option maxRecDepth 16384

noncomputable section

open scoped BigOperators

namespace Cert.Huber

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.SumSplit

variable (m : (ℓ : Loc nD τ sig) → Buf (Elt Ideal) ℓ) (ρ : Dev nD → PrngReg)

/-- The flat input as launched, at its literal shape. -/
abbrev xarr (c : Dev nD) : Vec Ideal S33554432 .f32 := m ((c : Thread nD τ).loc main_arg0)

/-! ## The index maps, decided over the grid -/

/-- The input window's block index at point `t` is `(t, 0)`. -/
theorem idx_in : ∀ t : Fin cfg0.N, win0_0.index t (0 : Fin 2) = t.val ∧ win0_0.index t (1 : Fin 2) = 0 :=
  (by decide +kernel : ∀ t : Fin grid0.N, _)

/-- The output window's block index is `(0, 0)` at every point. -/
theorem idx_out : ∀ t : Fin cfg0.N, win0_1.index t (0 : Fin 2) = 0 ∧ win0_1.index t (1 : Fin 2) = 0 :=
  (by decide +kernel : ∀ t : Fin grid0.N, _)

/-! ## A block's entry in the flat input -/

/-- The region finds the reshaped input: the flat one read row-major. -/
theorem V_main_v0 (c : Dev nD) :
    (V m c main_v0 : S262144x128.Idx → EReal) = shapeCast S262144x128 (xarr m c) shapeCasts_S33554432_S262144x128 := by
  show StableHlo.after hostOps0 (fun b => m (c, b)) (Proc.devRef .tc main_v0) = _
  after_results
  rfl

/-- The flat position of entry `(r, l)` of block `t`. -/
def flat (t : Fin 32) (r : Fin 8192) (l : Fin 128) : Fin 33554432 :=
  ⟨(t.val * 8192 + r.val) * 128 + l.val, by have := t.isLt; have := r.isLt; have := l.isLt; omega⟩

/-- Entry `(r, l)` of the block point `t` reads is the flat input at `(8192·t + r)·128 + l`. -/
theorem xblk_apply (c : Dev nD) (t : Fin cfg0.N) (ht : t.val < 32) (r : Fin 8192) (l : Fin 128) :
    xblk m c t (ix2 r l) = xarr m c (ix1 (flat ⟨t.val, ht⟩ r l)) := by
  show V m c main_v0 (((cfg0.win 0).blk t).view.emb (ix2 r l)) = _
  have he : ((cfg0.win 0).blk t).view.emb (ix2 r l)
      = ix2 (⟨t.val * 8192 + r.val, by have := r.isLt; omega⟩ : Fin 262144) l := by
    obtain ⟨e0, e1⟩ := idx_in t
    funext a; apply Fin.ext
    match a with
    | ⟨0, _⟩ => show win0_0.index t (0 : Fin 2) * 8192 + 1 * r.val = t.val * 8192 + r.val; omega
    | ⟨1, _⟩ => show win0_0.index t (1 : Fin 2) * 128 + 1 * l.val = l.val; omega
  refine (congrArg (V m c main_v0) he).trans ?_
  refine (congrFun (V_main_v0 m c) _).trans ?_
  exact shapeCast_apply _ _ _ _ (by rw [Shape.rowMajor_val_one, Shape.rowMajor_val_two]; rfl)

/-- The 32 block sums are the sum over every entry of the flat input. -/
theorem total_eq (c : Dev nD) : total m c = ∑ k : Fin 33554432, term (xarr m c (ix1 k)) := by
  unfold total
  rw [Finset.sum_range, sum_fin_mul_mul 32 8192 128 (by norm_num) (fun k => term (xarr m c (ix1 k)))]
  refine Finset.sum_congr rfl fun s _ => ?_
  have hs : s.val < cfg0.N := lt_of_lt_of_eq s.isLt N_0.symm
  rw [addend_of_lt m c s.val hs]
  unfold blockSum
  exact Finset.sum_congr rfl fun r _ => Finset.sum_congr rfl fun l _ =>
    congrArg term (xblk_apply m c ⟨s.val, hs⟩ s.isLt r l)

/-! ## The output array after the run -/

/-- An index of the output array is in point `t`'s block iff each coordinate is in the block's range on its axis. -/
theorem mem_blk_out (t : Fin cfg0.N) (i : S1x1.Idx) :
    i ∈ ((cfg0.win 1).blk t).view.set ↔ ∀ a : Fin 2, win0_1.index t a * S1x1.size a ≤ (i a).val
      ∧ (i a).val < win0_1.index t a * S1x1.size a + S1x1.size a := by
  show i ∈ ((View.whole main_v1).slice (win0_1.rect t)).set ↔ _
  rw [View.set_slice_whole, Rect.mem_set_unit]
  exact Iff.rfl

/-- The output array ends holding the whole sum at its one entry. -/
theorem final_out (c : Dev nD) : (dats m 0 c).arrAt 1 cfg0.N = fun _ => total m c := by
  refine (dats m 0 c).arrAt_eq_of_cover 1 (fun _ => total m c) (fun t hf => ?_) (fun i => ?_)
  · show (cfg0.win 1).cut (grid0.coords t) ((dats m 0 c).after 1 t) = _
    rw [after0_1]
    funext y
    exact out_apply m c t ((flush0_1 t).mp hf) _
  · have hN : (31 : ℕ) < cfg0.N := by rw [show cfg0.N = 32 from N_0]; decide
    refine ⟨⟨31, hN⟩, (flush0_1 _).mpr rfl, ?_⟩
    rw [mem_blk_out]
    obtain ⟨e0, e1⟩ := idx_out ⟨31, hN⟩
    intro a
    match a with
    | ⟨0, _⟩ =>
      show win0_1.index ⟨31, hN⟩ (0 : Fin 2) * 1 ≤ (i 0).val ∧ (i 0).val < win0_1.index ⟨31, hN⟩ (0 : Fin 2) * 1 + 1
      have h : (i 0).val < 1 := (i 0).isLt
      omega
    | ⟨1, _⟩ =>
      show win0_1.index ⟨31, hN⟩ (1 : Fin 2) * 1 ≤ (i 1).val ∧ (i 1).val < win0_1.index ⟨31, hN⟩ (1 : Fin 2) * 1 + 1
      have h : (i 1).val < 1 := (i 1).isLt
      omega

/-! ## The scalar result after the host's last reshape -/

/-- The result buffer after the lines that follow the region: the whole sum, at its one index. -/
theorem result_eq (c : Dev nD) :
    (Pipeline.afterTail₀ cfgs (dats m) 0 (V0 m) [hostOps1] c main_v2 : S_.Idx → EReal)
      = fun _ => ∑ k : Fin 33554432, term (xarr m c (ix1 k)) := by
  unfold Pipeline.afterTail₀
  show StableHlo.after hostOps1 _ (Proc.devRef .tc main_v2) = _
  after_results
  funext j
  refine (shapeCast_apply _ shapeCasts_S1x1_S_ j (ix2 (0 : Fin 1) (0 : Fin 1)) (by
    have h0 : (S_.rowMajor j).val = 0 := Shape.rowMajorPi_zero _ j
    rw [Shape.rowMajor_val_two, h0]
    simp)).trans ?_
  refine (congrFun ((Pipeline.withArrays_arr spec0 launch0.win.arr_inj c _ _ 1).trans (final_out m c)) _).trans ?_
  exact total_eq m c

/-! ## The run, read -/

/-- The scalar result's contents: the sum over every entry of the flat input of its Huber term. -/
def result (c : Dev nD) : Buf (Elt Ideal) ((c.tc : Thread nD τ).loc main_v2) :=
  fun _ => (∑ k : Fin 33554432, term (xarr m c (ix1 k)) : EReal)

/-- Every weakly fair execution of the idealized kernel's @main terminates with the result at the sum over every entry of
    the Huber terms, the argument unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.Huber

end
-- ==== Proof.RefValue.lean ====
/-
  The reference's result, read at its one entry.

  The reference takes the Huber term of every entry of the flat input and sums them all from the zero word. On the
  extended reals that host sum is `0` plus the sum over every index, and each operand of the select reads through to the
  entry's term: the three constants are scalar words broadcast to every index, the absolute value, the products, the
  difference, the sum and the comparison act entry by entry. So the result is the sum over `k < 33554432` of the Huber term
  of `x k`.
-/
import proofs.«136935_j20255065768293_1_alg».proof.Proof.Gen.ReferenceIdeal.Read
import proofs.«136935_j20255065768293_1_alg».proof.Proof.HuberTerm
import proofs.«136935_j20255065768293_1_alg».proof.Proof.LibSumSplit
import Idealize.ShloMosaic.Lib.ValueIdx
import Idealize.ShloMosaic.PureOps.Ideal.Laws

noncomputable section

open scoped BigOperators

namespace Cert.Huber

open Idealize.ShloMosaic Idealize.ShloMosaic.ValueIdx Cert.SumSplit
open Cert.ReferenceIdeal Cert.ReferenceIdeal.Gen Cert.ReferenceIdeal.Read

/-- The select's value at an entry is that entry's Huber term. -/
theorem ref_term (x : (⟨S33554432, .f32⟩ : BufTy).Contents (Elt Ideal)) (j : S33554432.Idx) :
    val_main_v12 (F := Ideal) x j = term (x j) := by
  rw [val_main_v12_apply, val_main_v11_apply, val_main_v3_apply, val_main_v9_apply, val_main_v7_apply,
    val_main_v5_apply, val_main_v2_apply, val_main_v4_apply, val_main_v6_apply, val_main_v8_apply, val_main_v10_apply]
  rfl

/-- The reference's result entry: the sum of all the Huber terms. -/
theorem ref_apply (x : (⟨S33554432, .f32⟩ : BufTy).Contents (Elt Ideal)) (i : S_.Idx) :
    val_main_v13 (F := Ideal) x i = ∑ k : Fin 33554432, term (x (ix1 k)) := by
  rw [val_main_v13_apply, val_main_cst_4_apply, Ideal.ofBits_def, Ideal.ofBits_zero_f32, zero_add]
  refine (sum_idx1 _).trans ?_
  exact Finset.sum_congr rfl fun k _ => ref_term x (ix1 k)

end Cert.Huber

end
-- ==== Proof.lean ====
/- The proof of `Cert.Claim` (proofs.«136935_j20255065768293_1_alg».proof.Defs): the Huber loss summed over a flat array of
   33554432 single-precision entries — a kernel that streams 32 blocks of 8192 × 128 entries, sums each block's Huber
   terms lane by lane and then row by row, and adds the 32 block sums into a one-entry accumulator — against the
   reference's one sum over all entries.

   The mathematics. Both programs apply the SAME function to an entry `x` (Proof/HuberTerm.lean): with `|x| = max x (−x)`,
   `(x·x)·½` where `|x| ≤ τ` and `τ·(|x| − τ) + τ²/2` elsewhere, the three constants the same 32-bit words on both sides,
   so no constant is ever evaluated. The kernel's result is `Σ_t Σ_r Σ_l f(x((8192·t + r)·128 + l))` (Proof/HuberBlock.lean:
   one block; Proof/Pieces.lean and Proof/Accum.lean: the accumulator point by point; Proof/KernelValue.lean: the blocks in
   the flat input, the output array, the final reshape), the reference's `Σ_k f(x(k))` (Proof/RefValue.lean), and the two
   are one sum because `k ↦ (t, r, l)` is a bijection and addition on the extended reals is commutative and associative
   (Proof/LibSumSplit.lean). No finiteness of the input is used: the precondition is never opened.

   The frames: the kernels' are the generated frame certificates, the reference's its generated run with the result
   dropped. `preserves`: the idealization rewrote nothing, its statement is `True`. -/
import proofs.«136935_j20255065768293_1_alg».proof.Defs
import proofs.«136935_j20255065768293_1_alg».proof.Proof.Gen.Kernel
import proofs.«136935_j20255065768293_1_alg».proof.Proof.Gen.Kernel.Frame
import proofs.«136935_j20255065768293_1_alg».proof.Proof.Gen.KernelIdeal
import proofs.«136935_j20255065768293_1_alg».proof.Proof.Gen.KernelIdeal.Frame
import proofs.«136935_j20255065768293_1_alg».proof.Proof.Gen.ReferenceIdeal
import proofs.«136935_j20255065768293_1_alg».proof.Proof.Gen.Pre_finite_inputs
import proofs.«136935_j20255065768293_1_alg».proof.Proof.Gen.ReferenceIdeal.Run
import proofs.«136935_j20255065768293_1_alg».proof.Proof.Gen.ReferenceIdeal.Read
import proofs.«136935_j20255065768293_1_alg».proof.Proof.KernelValue
import proofs.«136935_j20255065768293_1_alg».proof.Proof.RefValue
import Idealize.ShloMosaic.Adequacy
import Idealize.ShloMosaic.Init

noncomputable section

open scoped BigOperators

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result at the sum over every entry of its Huber term: the kernel by its 32 block sums
    re-indexed, the reference by its one sum, on inputs that agree. -/
theorem algebraic : Cert.algebraic_KernelIdeal_ReferenceIdeal := by
  intro m ρ m' ρ' _ hagree
  refine ⟨Cert.Huber.result m, Cert.Huber.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v13_eq (F := Ideal) _).trans ?_
  funext i
  refine (Cert.Huber.ref_apply _ i).trans ?_
  show _ = ∑ k : Fin 33554432, Cert.Huber.term (Cert.Huber.xarr m c (ix1 k))
  rw [hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
